-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x32 : Shape := ⟨2, ![524288, 32]⟩
abbrev S2000000 : Shape := ⟨1, ![2000000]⟩
abbrev S_ : Shape := ⟨0, ![]⟩

class Facts : Prop where
  bcast_S_S524288x32 : S_.BroadcastsInDim S524288x32 (![] : Fin 0 → Fin S524288x32.rank)
  reducesTo_S524288x32_S_d0_1 : S524288x32.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S524288x32 .f32) (main_arg1 : IVec S524288x32 32) (main_arg2 : IVec S2000000 1) (main_arg3 : FVec F S2000000 .f32) : IVec S_ 1 :=
  let main_v0 : FVec F S524288x32 .f32 := Host.absf main_arg0
  let main_cst : FVec F S_ .f32 := constant S_ .f32 0x7F800000#32
  let main_v1 : FVec F S524288x32 .f32 := broadcastInDim S524288x32 ![] bcast_S_S524288x32 main_cst
  let main_v2 : IVec S524288x32 1 := cmpf .olt main_v0 main_v1
  let main_c : IVec S_ 1 := constantI S_ 1 1#1
  let main_v3 : IVec S_ 1 := (fun x v => Host.reduce IntOp.andi x v reducesTo_S524288x32_S_d0_1 h_S_) main_v2 main_c
  let main_v4 : FVec F S2000000 .f32 := Host.absf main_arg3
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  main_v8
-- ==== Kernel.lean ====
abbrev S524288x32 : Shape := ⟨2, ![524288, 32]⟩
abbrev S2000000 : Shape := ⟨1, ![2000000]⟩
abbrev S_ : Shape := ⟨0, ![]⟩
abbrev S524288x32x1 : Shape := ⟨3, ![524288, 32, 1]⟩
abbrev S524288 : Shape := ⟨1, ![524288]⟩
abbrev S8192x32 : Shape := ⟨2, ![8192, 32]⟩
abbrev S8192 : Shape := ⟨1, ![8192]⟩
abbrev S8192x1 : Shape := ⟨2, ![8192, 1]⟩

abbrev nBuf : Space → Nat
  | .hbm => 24
  | .vmem => 8
  | .smem => 0
  | _ => 0

abbrev bufTy : (tb : Table) → Fin (tcTables nBuf tb) → BufTy
  | .hbm, ⟨0, _⟩ => ⟨S524288x32, .f32⟩
  | .hbm, ⟨1, _⟩ => ⟨S524288x32, .i32⟩
  | .hbm, ⟨2, _⟩ => ⟨S2000000, .i1⟩
  | .hbm, ⟨3, _⟩ => ⟨S2000000, .f32⟩
  | .hbm, ⟨4, _⟩ => ⟨S_, .i32⟩
  | .hbm, ⟨5, _⟩ => ⟨S524288x32, .i32⟩
  | .hbm, ⟨6, _⟩ => ⟨S524288x32, .i1⟩
  | .hbm, ⟨7, _⟩ => ⟨S_, .i32⟩
  | .hbm, ⟨8, _⟩ => ⟨S524288x32, .i32⟩
  | .hbm, ⟨9, _⟩ => ⟨S524288x32, .i32⟩
  | .hbm, ⟨10, _⟩ => ⟨S524288x32, .i32⟩
  | .hbm, ⟨11, _⟩ => ⟨S524288x32x1, .i32⟩
  | .hbm, ⟨12, _⟩ => ⟨S524288x32, .i1⟩
  | .hbm, ⟨13, _⟩ => ⟨S_, .i32⟩
  | .hbm, ⟨14, _⟩ => ⟨S524288x32, .i32⟩
  | .hbm, ⟨15, _⟩ => ⟨S524288x32, .i1⟩
  | .hbm, ⟨16, _⟩ => ⟨S_, .i32⟩
  | .hbm, ⟨17, _⟩ => ⟨S524288x32, .i32⟩
  | .hbm, ⟨18, _⟩ => ⟨S524288x32, .i32⟩
  | .hbm, ⟨19, _⟩ => ⟨S524288x32, .i32⟩
  | .hbm, ⟨20, _⟩ => ⟨S524288x32x1, .i32⟩
  | .hbm, ⟨21, _⟩ => ⟨S524288x32, .f32⟩
  | .hbm, ⟨22, _⟩ => ⟨S524288x32, .f32⟩
  | .hbm, ⟨23, _⟩ => ⟨S524288, .f32⟩
  | .local _ .vmem, ⟨0, _⟩ => ⟨S8192x32, .f32⟩
  | .local _ .vmem, ⟨1, _⟩ => ⟨S8192x32, .f32⟩
  | .local _ .vmem, ⟨2, _⟩ => ⟨S8192x32, .f32⟩
  | .local _ .vmem, ⟨3, _⟩ => ⟨S8192x32, .f32⟩
  | .local _ .vmem, ⟨4, _⟩ => ⟨S8192x32, .f32⟩
  | .local _ .vmem, ⟨5, _⟩ => ⟨S8192x32, .f32⟩
  | .local _ .vmem, ⟨6, _⟩ => ⟨S8192, .f32⟩
  | .local _ .vmem, ⟨7, _⟩ => ⟨S8192, .f32⟩
  | _, _ => ⟨S524288x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S524288x32 : S_.BroadcastsInDim S524288x32 (![] : Fin 0 → Fin S524288x32.rank)
  bcast_S524288x32_S524288x32x1_0_1 : S524288x32.BroadcastsInDim S524288x32x1 (![0, 1] : Fin 2 → Fin S524288x32x1.rank)
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  natLt_1_32 : 1 < 32
  reduces_S8192x32_S8192 : S8192x32.Reduces [1] S8192
  shapeCasts_S8192_S8192x1 : S8192.ShapeCasts S8192x1
  broadcasts_S8192x1_S8192x32 : S8192x1.Broadcasts S8192x32
  inb_S8192_S8192_0 : ∀ a, (![0] : Fin 1 → Nat) a + S8192.size a ≤ S8192.size a
  h_S8192 : 0 < S8192.numel
  gather_S2000000_S524288x32x1_S524288x32_n_0_n_n_0_2_1_wf : GatherDims.WF S2000000 S524288x32x1 S524288x32 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S524288x32.size a
  hwx0_0 : ∀ i : grid0.Coords, EltTy.bits .f32 = 32 ∨ (Rect.block (s := S524288x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S524288x32.size a
  hwx0_1 : ∀ i : grid0.Coords, EltTy.bits .f32 = 32 ∨ (Rect.block (s := S524288x32) S8192x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S524288x32.size a
  hwx0_2 : ∀ i : grid0.Coords, EltTy.bits .f32 = 32 ∨ (Rect.block (s := S524288x32) S8192x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S524288.size a
  hwx0_3 : ∀ i : grid0.Coords, EltTy.bits .f32 = 32 ∨ (Rect.block (s := S524288) S8192.size (cc0_transform_3 i) (hinb0_3 i)).WholeWords (EltTy.packing .f32)

variable [Facts₀]

def gather_S2000000_S524288x32x1_S524288x32_n_0_n_n_0_2_1 : GatherDims S2000000 S524288x32x1 S524288x32 where
  offsetDims := []
  collapsedSliceDims := [0]
  operandBatchingDims := []
  startIndicesBatchingDims := []
  startIndexMap := [0]
  indexVectorDim := 2
  sliceSizes := ![1]
  wf := gather_S2000000_S524288x32x1_S524288x32_n_0_n_n_0_2_1_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8192x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8192x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x32 : Shape := ⟨2, ![524288, 32]⟩
abbrev S2000000 : Shape := ⟨1, ![2000000]⟩
abbrev S_ : Shape := ⟨0, ![]⟩
abbrev S524288x32x1 : Shape := ⟨3, ![524288, 32, 1]⟩
abbrev S524288 : Shape := ⟨1, ![524288]⟩
abbrev S524288x1 : Shape := ⟨2, ![524288, 1]⟩

abbrev nBuf : Space → Nat
  | .hbm => 77
  | .vmem => 0
  | .smem => 0
  | _ => 0

abbrev bufTy : (tb : Table) → Fin (tcTables nBuf tb) → BufTy
  | .hbm, ⟨0, _⟩ => ⟨S524288x32, .f32⟩
  | .hbm, ⟨1, _⟩ => ⟨S524288x32, .i32⟩
  | .hbm, ⟨2, _⟩ => ⟨S2000000, .i1⟩
  | .hbm, ⟨3, _⟩ => ⟨S2000000, .f32⟩
  | .hbm, ⟨4, _⟩ => ⟨S_, .f32⟩
  | .hbm, ⟨5, _⟩ => ⟨S524288x32, .f32⟩
  | .hbm, ⟨6, _⟩ => ⟨S524288x32, .i1⟩
  | .hbm, ⟨7, _⟩ => ⟨S_, .i32⟩
  | .hbm, ⟨8, _⟩ => ⟨S524288x32, .i32⟩
  | .hbm, ⟨9, _⟩ => ⟨S524288x32, .i1⟩
  | .hbm, ⟨10, _⟩ => ⟨S_, .i32⟩
  | .hbm, ⟨11, _⟩ => ⟨S524288x32, .i32⟩
  | .hbm, ⟨12, _⟩ => ⟨S524288x32, .i32⟩
  | .hbm, ⟨13, _⟩ => ⟨S524288x32, .i32⟩
  | .hbm, ⟨14, _⟩ => ⟨S524288x32x1, .i32⟩
  | .hbm, ⟨15, _⟩ => ⟨S524288x32, .i1⟩
  | .hbm, ⟨16, _⟩ => ⟨S524288x32, .i1⟩
  | .hbm, ⟨17, _⟩ => ⟨S524288x32, .i32⟩
  | .hbm, ⟨18, _⟩ => ⟨S_, .i32⟩
  | .hbm, ⟨19, _⟩ => ⟨S524288, .i32⟩
  | .hbm, ⟨20, _⟩ => ⟨S524288x32, .i32⟩
  | .hbm, ⟨21, _⟩ => ⟨S_, .i32⟩
  | .hbm, ⟨22, _⟩ => ⟨S524288, .i32⟩
  | .hbm, ⟨23, _⟩ => ⟨S_, .i32⟩
  | .hbm, ⟨24, _⟩ => ⟨S524288, .i32⟩
  | .hbm, ⟨25, _⟩ => ⟨S524288, .i32⟩
  | .hbm, ⟨26, _⟩ => ⟨S524288, .f32⟩
  | .hbm, ⟨27, _⟩ => ⟨S524288, .f32⟩
  | .hbm, ⟨28, _⟩ => ⟨S524288, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i1⟩
  | .hbm, ⟨35, _⟩ => ⟨S524288, .i1⟩
  | .hbm, ⟨36, _⟩ => ⟨S_, .f32⟩
  | .hbm, ⟨37, _⟩ => ⟨S524288, .f32⟩
  | .hbm, ⟨38, _⟩ => ⟨S524288, .i1⟩
  | .hbm, ⟨39, _⟩ => ⟨S524288, .i1⟩
  | .hbm, ⟨40, _⟩ => ⟨S_, .f32⟩
  | .hbm, ⟨41, _⟩ => ⟨S524288x32, .f32⟩
  | .hbm, ⟨42, _⟩ => ⟨S524288x32, .f32⟩
  | .hbm, ⟨43, _⟩ => ⟨S_, .f32⟩
  | .hbm, ⟨44, _⟩ => ⟨S524288, .f32⟩
  | .hbm, ⟨45, _⟩ => ⟨S524288x1, .f32⟩
  | .hbm, ⟨46, _⟩ => ⟨S524288x32, .f32⟩
  | .hbm, ⟨47, _⟩ => ⟨S524288x32, .f32⟩
  | .hbm, ⟨48, _⟩ => ⟨S524288x32, .f32⟩
  | .hbm, ⟨49, _⟩ => ⟨S_, .f32⟩
  | .hbm, ⟨50, _⟩ => ⟨S_, .f32⟩
  | .hbm, ⟨51, _⟩ => ⟨S524288x32, .f32⟩
  | .hbm, ⟨52, _⟩ => ⟨S524288x32, .f32⟩
  | .hbm, ⟨53, _⟩ => ⟨S_, .f32⟩
  | .hbm, ⟨54, _⟩ => ⟨S524288, .f32⟩
  | .hbm, ⟨55, _⟩ => ⟨S524288x1, .f32⟩
  | .hbm, ⟨56, _⟩ => ⟨S_, .f32⟩
  | .hbm, ⟨57, _⟩ => ⟨S524288x1, .f32⟩
  | .hbm, ⟨58, _⟩ => ⟨S524288x1, .f32⟩
  | .hbm, ⟨59, _⟩ => ⟨S524288x32, .f32⟩
  | .hbm, ⟨60, _⟩ => ⟨S524288x32, .f32⟩
  | .hbm, ⟨61, _⟩ => ⟨S_, .i32⟩
  | .hbm, ⟨62, _⟩ => ⟨S524288x32, .i32⟩
  | .hbm, ⟨63, _⟩ => ⟨S524288x32, .i1⟩
  | .hbm, ⟨64, _⟩ => ⟨S_, .i32⟩
  | .hbm, ⟨65, _⟩ => ⟨S524288x32, .i32⟩
  | .hbm, ⟨66, _⟩ => ⟨S524288x32, .i32⟩
  | .hbm, ⟨67, _⟩ => ⟨S524288x32, .i32⟩
  | .hbm, ⟨68, _⟩ => ⟨S524288x32x1, .i32⟩
  | .hbm, ⟨69, _⟩ => ⟨S524288x32, .f32⟩
  | .hbm, ⟨70, _⟩ => ⟨S524288x32, .f32⟩
  | .hbm, ⟨71, _⟩ => ⟨S_, .f32⟩
  | .hbm, ⟨72, _⟩ => ⟨S524288, .f32⟩
  | .hbm, ⟨73, _⟩ => ⟨S_, .f32⟩
  | .hbm, ⟨74, _⟩ => ⟨S_, .f32⟩
  | .hbm, ⟨75, _⟩ => ⟨S524288, .f32⟩
  | .hbm, ⟨76, _⟩ => ⟨S524288, .f32⟩
  | _, _ => ⟨S524288x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_call0_v0 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_call1_v0 : Ref sig .tc := ⟨.hbm, 50, rfl⟩
abbrev main_call1_v1 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_c_13 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩

abbrev nD : Nat := 1
abbrev τ : Topo := Topo.v7x

variable {F : FTy → Type} [FloatOps F]

class Facts₀ : Prop where
  bcast_S_S524288x32 : S_.BroadcastsInDim S524288x32 (![] : Fin 0 → Fin S524288x32.rank)
  bcast_S524288x32_S524288x32x1_0_1 : S524288x32.BroadcastsInDim S524288x32x1 (![0, 1] : Fin 2 → Fin S524288x32x1.rank)
  natLt_1_32 : 1 < 32
  reducesTo_S524288x32_S524288_d1 : S524288x32.ReducesTo [1] S524288
  h_S_ : 0 < S_.numel
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x32_0_1 : S524288x1.BroadcastsInDim S524288x32 (![0, 1] : Fin 2 → Fin S524288x32.rank)
  bcast_S_S524288x1 : S_.BroadcastsInDim S524288x1 (![] : Fin 0 → Fin S524288x1.rank)
  gather_S2000000_S524288x32x1_S524288x32_n_0_n_n_0_2_1_wf : GatherDims.WF S2000000 S524288x32x1 S524288x32 [] [0] [] [0] [] 2 ![1]

variable [Facts₀]

def gather_S2000000_S524288x32x1_S524288x32_n_0_n_n_0_2_1 : GatherDims S2000000 S524288x32x1 S524288x32 where
  offsetDims := []
  collapsedSliceDims := [0]
  operandBatchingDims := []
  startIndicesBatchingDims := []
  startIndexMap := [0]
  indexVectorDim := 2
  sliceSizes := ![1]
  wf := gather_S2000000_S524288x32x1_S524288x32_n_0_n_n_0_2_1_wf

class Facts : Prop extends Facts₀ where

variable [Facts]
-- ==== Proof.RowSpec.lean ====
/-
  One row of the neighbour table, as mathematics.  A row holds 32 similarities `a k`, 32 neighbour flags `v k` (one
  bit each) and 32 counts `cn k`.  A neighbour is KEPT when its similarity exceeds the threshold, and is VIRAL when it
  is kept and flagged.  The row's prediction is the softmax-weighted sum of the counts over the viral neighbours
  (weights `exp (a k - max)` over the viral `k`, normalised by their sum, the sum floored by a tiny constant), and it is
  reported only when the row is VALID: some neighbour kept, some neighbour viral, and the viral share of the kept ones
  at least one fifth; otherwise the prediction is zero.

  Two programs compute the two counts differently: one adds the bits as floats (each bit widened to a word, the word
  converted), the other adds them as words and converts the total.  Both are the NUMBER of set bits, a natural number
  at most 32, and this file proves the small facts that say so: the float sum of converted bits, the converted word
  total, the word total floored at one, and the test "the total is positive" read on words and on reals.
-/
import Idealize.ShloMosaic.PureOps.Ideal.Laws
import Idealize.ShloMosaic.Lib.ValueIdx
import Idealize.ShloMosaic.Lib.KernelVsHost
import Idealize.ShloMosaic.Lib.StableHlo.Predicate

noncomputable section

namespace Cert.KnnRow

open Idealize.ShloMosaic Idealize.ShloMosaic.ValueIdx

/-! ## The row's prediction -/

/-- How many of a row's 32 bits are set. -/
def setBits (p : Fin 32 → BitVec 1) : ℕ := (Finset.univ.filter fun k => p k = 1#1).card

/-- That number as an extended real. -/
def cnt (p : Fin 32 → BitVec 1) : EReal := ((setBits p : ℝ) : EReal)

/-- Neighbour `k` is kept: its similarity exceeds the threshold. -/
def keep (a : Fin 32 → EReal) : Fin 32 → BitVec 1 := fun k => Ideal.cmp .ogt (a k) (Ideal.ofBits .f32 0x3F333333#32)

/-- Neighbour `k` is viral: flagged and kept. -/
def viral (a : Fin 32 → EReal) (v : Fin 32 → BitVec 1) : Fin 32 → BitVec 1 := fun k => IntOp.andi (v k) (keep a k)

/-- The row is valid: a kept neighbour, a viral neighbour, and viral / max(kept, 1) at least the share threshold. -/
def valid (a : Fin 32 → EReal) (v : Fin 32 → BitVec 1) : BitVec 1 :=
  IntOp.andi
    (IntOp.andi (Ideal.cmp .ogt (cnt (keep a)) (Ideal.ofBits .f32 0x00000000#32))
      (Ideal.cmp .ogt (cnt (viral a v)) (Ideal.ofBits .f32 0x00000000#32)))
    (Ideal.cmp .oge (Ideal.div (cnt (viral a v)) (max (cnt (keep a)) (Ideal.ofBits .f32 0x3F800000#32)))
      (Ideal.ofBits .f32 0x3E4CCCCD#32))

/-- The largest similarity among the viral neighbours (the others replaced by a large negative number), from -∞. -/
def rowMax (a : Fin 32 → EReal) (v : Fin 32 → BitVec 1) : EReal :=
  (Finset.univ : Finset (Fin 32)).fold max (Ideal.ofBits .f32 0xFF800000#32)
    (fun k => Scalar.select (viral a v k) (a k) (Ideal.ofBits .f32 0xF149F2CA#32))

/-- The unnormalised weight of neighbour `k`: `exp (a k - max)` if viral, else zero. -/
def wexp (a : Fin 32 → EReal) (v : Fin 32 → BitVec 1) (k : Fin 32) : EReal :=
  Scalar.select (viral a v k) (Ideal.exp (a k - rowMax a v)) (Ideal.ofBits .f32 0x00000000#32)

/-- The normaliser: the weights' sum, floored by a tiny constant. -/
def denom (a : Fin 32 → EReal) (v : Fin 32 → BitVec 1) : EReal :=
  max (∑ k : Fin 32, wexp a v k) (Ideal.ofBits .f32 0x0DA24260#32)

/-- The row's prediction. -/
def pred (a : Fin 32 → EReal) (v : Fin 32 → BitVec 1) (cn : Fin 32 → EReal) : EReal :=
  Scalar.select (valid a v) (∑ k : Fin 32, Ideal.div (wexp a v k) (denom a v) * cn k) (Ideal.ofBits .f32 0x00000000#32)

/-- All rows: row `i` of the result is the prediction of row `i` of the three tables. -/
def predAll (A : (⟨2, ![524288, 32]⟩ : Shape).Idx → EReal) (V : (⟨2, ![524288, 32]⟩ : Shape).Idx → BitVec 1)
    (C : (⟨2, ![524288, 32]⟩ : Shape).Idx → EReal) : (⟨1, ![524288]⟩ : Shape).Idx → EReal :=
  fun i => pred (fun k => A (ix2 (i 0) k)) (fun k => V (ix2 (i 0) k)) (fun k => C (ix2 (i 0) k))

/-! ## Three literals -/

theorem ofBits_half : Ideal.ofBits .f32 0x3F000000#32 = (((1 : ℝ) / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32]; rfl

/-! ## A flag converted to a float and compared with one half is the flag -/

theorem cmp_toNat_half (b : BitVec 1) :
    Ideal.cmp .ogt (((b.toNat : ℝ)) : EReal) (Ideal.ofBits .f32 0x3F000000#32) = b := by
  rw [ofBits_half]
  rcases BitVec.eq_zero_or_eq_one b with rfl | rfl
  · show BitVec.ofBool (decide ((((1 : ℝ) / 2 : ℝ) : EReal) < (((0 : ℕ) : ℝ) : EReal))) = 0#1
    rw [decide_eq_false (by rw [EReal.coe_lt_coe_iff]; norm_num)]; rfl
  · show BitVec.ofBool (decide ((((1 : ℝ) / 2 : ℝ) : EReal) < (((1 : ℕ) : ℝ) : EReal))) = 1#1
    rw [decide_eq_true (by rw [EReal.coe_lt_coe_iff]; norm_num)]; rfl

/-! ## The float sum of the converted bits is the setBits -/

theorem sum_sitofp_bits (p : Fin 32 → BitVec 1) :
    ∑ k : Fin 32, ((((p k).setWidth 32).toInt : ℝ) : EReal) = cnt p := by
  have h : ∀ S : Finset (Fin 32), ∑ k ∈ S, ((((p k).setWidth 32).toInt : ℝ) : EReal)
      = (((S.filter fun k => p k = 1#1).card : ℝ) : EReal) := by
    intro S
    induction S using Finset.induction_on with
    | empty => simp
    | insert a S ha ih =>
      rw [Finset.sum_insert ha, ih, Finset.filter_insert, toInt_setWidth_bit]
      rcases BitVec.eq_zero_or_eq_one (p a) with h0 | h1
      · rw [h0, if_neg (by decide)]
        show ((((0 : ℕ) : ℤ) : ℝ) : EReal) + _ = _
        simp
      · rw [h1, if_pos rfl, Finset.card_insert_of_notMem (fun hm => ha (Finset.mem_filter.1 hm).1)]
        show ((((1 : ℕ) : ℤ) : ℝ) : EReal) + ((_ : ℝ) : EReal) = _
        rw [← EReal.coe_add]; congr 1; push_cast; ring
  exact h Finset.univ

/-! ## The word total: converted, floored at one, tested for positivity -/

section Word
variable (n : BitVec 32) (c : ℕ) (hn : n.toNat = c) (hc : c ≤ 32)
include hn hc

theorem coe_toInt_count : ((n.toInt : ℝ) : EReal) = ((c : ℝ) : EReal) := by
  rw [StableHlo.Predicate.toInt_eq_toNat_of_lt (by omega), hn]; norm_cast

theorem coe_toInt_maxsi_one :
    (((IntOp.maxsi n 1#32).toInt : ℝ) : EReal) = max ((c : ℝ) : EReal) (Ideal.ofBits .f32 0x3F800000#32) := by
  rw [ofBits_one]
  unfold IntOp.maxsi
  have h1 : (1#32 : BitVec 32).toNat = 1 := rfl
  by_cases h : (1#32 : BitVec 32).slt n = true
  · rw [if_pos h]
    have : 1 < c := by
      have := (StableHlo.Predicate.slt_bool_iff_toNat (a := 1#32) (b := n) (by decide) (by omega)).1 (by rw [h]; rfl)
      omega
    rw [coe_toInt_count n c hn hc, max_eq_left (EReal.coe_le_coe_iff.2 (by exact_mod_cast this.le))]
  · rw [if_neg h]
    have : c ≤ 1 := by
      by_contra hcon
      exact h (by
        have := (StableHlo.Predicate.slt_bool_iff_toNat (a := 1#32) (b := n) (by decide) (by omega)).2 (by omega)
        rcases hb : (1#32 : BitVec 32).slt n with _ | _
        · rw [hb] at this; exact absurd this (by decide)
        · rfl)
    show ((((1#32 : BitVec 32).toInt : ℤ) : ℝ) : EReal) = _
    rw [max_eq_right (EReal.coe_le_coe_iff.2 (by exact_mod_cast this))]
    norm_num

theorem cmpi_sgt_zero :
    IntOp.cmpi .sgt n 0#32 = Ideal.cmp .ogt ((c : ℝ) : EReal) (Ideal.ofBits .f32 0x00000000#32) := by
  rw [ofBits_zero]
  show BitVec.ofBool ((0#32 : BitVec 32).slt n) = BitVec.ofBool (decide ((((0 : ℝ)) : EReal) < ((c : ℝ) : EReal)))
  congr 1
  have key := StableHlo.Predicate.slt_bool_iff_toNat (a := 0#32) (b := n) (by decide) (by omega)
  rw [StableHlo.Predicate.ofBool_eq_one_iff] at key
  rcases hb : (0#32 : BitVec 32).slt n with _ | _
  · have : ¬ (0 < c) := fun h0 => by
      have := key.2 (by show (0#32 : BitVec 32).toNat < n.toNat; rw [hn]; exact h0)
      rw [hb] at this; exact absurd this (by decide)
    exact (decide_eq_false (fun h0 => this (by exact_mod_cast EReal.coe_lt_coe_iff.1 h0))).symm
  · have : 0 < c := by
      have := key.1 hb
      have h0 : (0#32 : BitVec 32).toNat = 0 := rfl
      omega
    exact (decide_eq_true (EReal.coe_lt_coe_iff.2 (by exact_mod_cast this))).symm

end Word

end Cert.KnnRow

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.KernelPred.lean ====
/-
  What the kernel's body computes from one block, row by row.  A block is 8192 rows of the three staged tables: the
  similarities `P0`, the flags converted to floats `P1` (0.0 or 1.0; the body recovers the bit by comparing with one
  half) and the counts `P2`.  Entry `r` of the vector the body stores is `Cert.KnnRow.pred` of row `r` of the block:
  the body's two totals are float sums of the converted bits, which are the numbers of set bits; its row maximum and
  its two other row sums are read at a row by inserting the column index; the maximum and the normaliser reach the
  row's 32 columns through a recast to a column and a broadcast along the rows.
-/
import proofs.«123956_j60370060313142_1_alg».proof.Proof.Gen.KernelIdeal.Skeleton
import proofs.«123956_j60370060313142_1_alg».proof.Proof.RowSpec
import proofs.«123956_j60370060313142_1_alg».proof.Proof.LibKeepdims

noncomputable section

namespace Cert.KernelIdeal.KernelPred

open Cert.KernelIdeal Cert.KernelIdeal.Gen Cert.KnnRow Cert.LibKeepdims
open Idealize.ShloMosaic Idealize.ShloMosaic.ValueIdx

variable (P0 P1 P2 : Vec Ideal S8192x32 .f32)

/-- Row `r` of the block's similarities. -/
abbrev pa (r : Fin 8192) : Fin 32 → EReal := fun k => P0 (ix2 r k)
/-- Row `r` of the block's flags: the float flag exceeds one half. -/
abbrev pv (r : Fin 8192) : Fin 32 → BitVec 1 := fun k => Ideal.cmp .ogt (P1 (ix2 r k)) (Ideal.ofBits .f32 0x3F000000#32)
/-- Row `r` of the block's counts. -/
abbrev pc (r : Fin 8192) : Fin 32 → EReal := fun k => P2 (ix2 r k)

variable (r : Fin 8192) (k : Fin 32)

/-- A row index with the column inserted. -/
theorem lift_eq (h : S8192x32.Reduces [1] S8192) : h.lift (ix1 r) k = ix2 r k :=
  funext fun a => Fin.ext (by match a with | ⟨0, _⟩ => rfl | ⟨1, _⟩ => rfl)

/-! ## The bits and the counts' entries -/

theorem keep_at : k0_pay3 (F := Ideal) P0 (ix2 r k) = keep (pa P0 r) k := rfl

theorem viral_at : k0_pay4 (F := Ideal) P0 P1 (ix2 r k) = viral (pa P0 r) (pv P1 r) k := by
  show IntOp.andi (Ideal.cmp .ogt (shapeCast S8192x32 P1 shapeCasts_S8192x32_S8192x32 (ix2 r k)) (Ideal.ofBits .f32 0x3F000000#32))
    (k0_pay3 (F := Ideal) P0 (ix2 r k)) = _
  rw [shapeCast_self]; rfl

theorem counts_at : k0_pay2 (F := Ideal) P2 (ix2 r k) = P2 (ix2 r k) := by
  show shapeCast S8192x32 P2 shapeCasts_S8192x32_S8192x32 (ix2 r k) = _
  rw [shapeCast_self]

/-! ## The two totals: float sums of the converted bits -/

/-- The kept bits, each widened to a word and converted. -/
abbrev keepF : FVec Ideal S8192x32 .f32 := sitofp .f32 (extui 32 (k0_pay3 (F := Ideal) P0) natLt_1_32)

/-- The viral bits, each widened to a word and converted. -/
abbrev viralF : FVec Ideal S8192x32 .f32 := sitofp .f32 (extui 32 (k0_pay4 (F := Ideal) P0 P1) natLt_1_32)

/-- The body's total of the kept bits, per row. -/
abbrev nkeepV : FVec Ideal S8192 .f32 :=
  multiReduction .add [1] S8192 (keepF P0) 0x00000000#32 reduces_S8192x32_S8192 (.inl rfl) rfl

/-- The body's total of the viral bits, per row. -/
abbrev nviralV : FVec Ideal S8192 .f32 :=
  multiReduction .add [1] S8192 (viralF P0 P1) 0x00000000#32 reduces_S8192x32_S8192 (.inl rfl) rfl

theorem keepF_at : keepF P0 (ix2 r k) = ((((keep (pa P0 r) k).setWidth 32).toInt : ℝ) : EReal) := rfl

theorem viralF_at : viralF P0 P1 (ix2 r k) = ((((viral (pa P0 r) (pv P1 r) k).setWidth 32).toInt : ℝ) : EReal) := by
  show ((((k0_pay4 (F := Ideal) P0 P1 (ix2 r k)).setWidth 32).toInt : ℝ) : EReal) = _
  rw [viral_at]

theorem nkeep_at : nkeepV P0 (ix1 r) = cnt (keep (pa P0 r)) := by
  refine (Ideal.multiReduction_add_single (keepF P0) _ reduces_S8192x32_S8192 _ _ (ix1 r)).trans ?_
  exact Eq.trans (Finset.sum_congr rfl fun q _ =>
    (congrArg (keepF P0) (lift_eq r q reduces_S8192x32_S8192)).trans (keepF_at P0 r q)) (sum_sitofp_bits (keep (pa P0 r)))

theorem nviral_at : nviralV P0 P1 (ix1 r) = cnt (viral (pa P0 r) (pv P1 r)) := by
  refine (Ideal.multiReduction_add_single (viralF P0 P1) _ reduces_S8192x32_S8192 _ _ (ix1 r)).trans ?_
  exact Eq.trans (Finset.sum_congr rfl fun q _ =>
    (congrArg (viralF P0 P1) (lift_eq r q reduces_S8192x32_S8192)).trans (viralF_at P0 P1 r q))
    (sum_sitofp_bits (viral (pa P0 r) (pv P1 r)))

theorem valid_at : k0_pay5 (F := Ideal) P0 P1 (ix1 r) = valid (pa P0 r) (pv P1 r) := by
  show IntOp.andi
      (IntOp.andi (Ideal.cmp .ogt (nkeepV P0 (ix1 r)) (Ideal.ofBits .f32 0x00000000#32))
        (Ideal.cmp .ogt (nviralV P0 P1 (ix1 r)) (Ideal.ofBits .f32 0x00000000#32)))
      (Ideal.cmp .oge (Ideal.div (nviralV P0 P1 (ix1 r)) (max (nkeepV P0 (ix1 r)) (Ideal.ofBits .f32 0x3F800000#32)))
        (Ideal.ofBits .f32 0x3E4CCCCD#32)) = _
  rw [nkeep_at, nviral_at]; rfl

/-! ## The row maximum and the weights -/

/-- The similarities of the viral neighbours, the others replaced by the large negative number. -/
abbrev logitsV : Vec Ideal S8192x32 .f32 :=
  select (k0_pay4 (F := Ideal) P0 P1) P0 (broadcast S8192x32 (Scalar.ofBits (F := Ideal) .f32 0xF149F2CA#32))

/-- The body's row maximum over them, per row. -/
abbrev rowmaxV : FVec Ideal S8192 .f32 :=
  multiReduction .maximumf [1] S8192 (logitsV P0 P1) 0xFF800000#32 reduces_S8192x32_S8192 (.inl rfl) rfl

theorem logit_at : logitsV P0 P1 (ix2 r k)
    = Scalar.select (viral (pa P0 r) (pv P1 r) k) (pa P0 r k) (Ideal.ofBits .f32 0xF149F2CA#32) := by
  show Scalar.select (k0_pay4 (F := Ideal) P0 P1 (ix2 r k)) (P0 (ix2 r k)) (Ideal.ofBits .f32 0xF149F2CA#32) = _
  rw [viral_at]

theorem max_at : rowmaxV P0 P1 (ix1 r) = rowMax (pa P0 r) (pv P1 r) := by
  refine (Ideal.multiReduction_maximumf_single (logitsV P0 P1) _ reduces_S8192x32_S8192 _ _ (ix1 r)).trans ?_
  unfold rowMax
  exact Finset.fold_congr fun q _ =>
    (congrArg (logitsV P0 P1) (lift_eq r q reduces_S8192x32_S8192)).trans (logit_at P0 P1 r q)

theorem wexp_at : k0_pay6 (F := Ideal) P0 P1 (ix2 r k) = wexp (pa P0 r) (pv P1 r) k := by
  show Scalar.select (k0_pay4 (F := Ideal) P0 P1 (ix2 r k))
    (Ideal.exp (P0 (ix2 r k)
      - broadcastTo S8192x32 (shapeCast S8192x1 (rowmaxV P0 P1) shapeCasts_S8192_S8192x1) broadcasts_S8192x1_S8192x32 (ix2 r k)))
    (Ideal.ofBits .f32 0x00000000#32) = _
  rw [broadcastTo_shapeCast_column_apply, max_at, viral_at]; rfl

/-! ## The normaliser -/

/-- The body's sum of the weights, per row. -/
abbrev wsumV : FVec Ideal S8192 .f32 :=
  multiReduction .add [1] S8192 (k0_pay6 (F := Ideal) P0 P1) 0x00000000#32 reduces_S8192x32_S8192 (.inl rfl) rfl

theorem wsum_at : wsumV P0 P1 (ix1 r) = ∑ q : Fin 32, wexp (pa P0 r) (pv P1 r) q := by
  refine (Ideal.multiReduction_add_single (k0_pay6 (F := Ideal) P0 P1) _ reduces_S8192x32_S8192 _ _ (ix1 r)).trans ?_
  exact Finset.sum_congr rfl fun q _ =>
    (congrArg (k0_pay6 (F := Ideal) P0 P1) (lift_eq r q reduces_S8192x32_S8192)).trans (wexp_at P0 P1 r q)

theorem denom_at (u : Fin 1) : k0_pay7 (F := Ideal) P0 P1 (ix2 r u) = denom (pa P0 r) (pv P1 r) := by
  show max (shapeCast S8192x1 (wsumV P0 P1) shapeCasts_S8192_S8192x1 (ix2 r u)) (Ideal.ofBits .f32 0x0DA24260#32) = _
  rw [shapeCast_a_a1_apply, wsum_at]; rfl

/-! ## The stored vector -/

/-- The normalised weights times the counts. -/
abbrev prodV : FVec Ideal S8192x32 .f32 :=
  mulf (divf (k0_pay6 (F := Ideal) P0 P1) (broadcastTo S8192x32 (k0_pay7 (F := Ideal) P0 P1) broadcasts_S8192x1_S8192x32))
    (k0_pay2 (F := Ideal) P2)

/-- The body's weighted sum of the counts, per row. -/
abbrev wcountsV : FVec Ideal S8192 .f32 :=
  multiReduction .add [1] S8192 (prodV P0 P1 P2) 0x00000000#32 reduces_S8192x32_S8192 (.inl rfl) rfl

theorem prod_at : prodV P0 P1 P2 (ix2 r k)
    = Ideal.div (wexp (pa P0 r) (pv P1 r) k) (denom (pa P0 r) (pv P1 r)) * pc P2 r k := by
  show Ideal.div (k0_pay6 (F := Ideal) P0 P1 (ix2 r k))
      (broadcastTo S8192x32 (k0_pay7 (F := Ideal) P0 P1) broadcasts_S8192x1_S8192x32 (ix2 r k))
    * k0_pay2 (F := Ideal) P2 (ix2 r k) = _
  rw [wexp_at, broadcastTo_a1_ab_apply, denom_at, counts_at]

theorem wcounts_at : wcountsV P0 P1 P2 (ix1 r)
    = ∑ q : Fin 32, Ideal.div (wexp (pa P0 r) (pv P1 r) q) (denom (pa P0 r) (pv P1 r)) * pc P2 r q := by
  refine (Ideal.multiReduction_add_single (prodV P0 P1 P2) _ reduces_S8192x32_S8192 _ _ (ix1 r)).trans ?_
  exact Finset.sum_congr rfl fun q _ =>
    (congrArg (prodV P0 P1 P2) (lift_eq r q reduces_S8192x32_S8192)).trans (prod_at P0 P1 P2 r q)

/-- Entry `r` of the vector the body stores is the prediction of row `r` of the block. -/
theorem stored_at : k0_pay1 (F := Ideal) (k0_pay2 P2) (k0_pay5 P0 P1) (k0_pay6 P0 P1) (k0_pay7 P0 P1) (ix1 r)
    = pred (pa P0 r) (pv P1 r) (pc P2 r) := by
  show Scalar.select (k0_pay5 (F := Ideal) P0 P1 (ix1 r)) (wcountsV P0 P1 P2 (ix1 r)) (Ideal.ofBits .f32 0x00000000#32) = _
  rw [valid_at, wcounts_at]; rfl

/-- The same, for any three rows the block's row `r` is known to be. -/
theorem stored_of_rows (a : Fin 32 → EReal) (v : Fin 32 → BitVec 1) (cn : Fin 32 → EReal)
    (h0 : ∀ q, P0 (ix2 r q) = a q)
    (h1 : ∀ q, Ideal.cmp .ogt (P1 (ix2 r q)) (Ideal.ofBits .f32 0x3F000000#32) = v q)
    (h2 : ∀ q, P2 (ix2 r q) = cn q) :
    k0_pay1 (F := Ideal) (k0_pay2 P2) (k0_pay5 P0 P1) (k0_pay6 P0 P1) (k0_pay7 P0 P1) (ix1 r) = pred a v cn := by
  rw [stored_at, show pa P0 r = a from funext h0, show pv P1 r = v from funext h1, show pc P2 r = cn from funext h2]

/-- The same at any index `j` of the stored vector: its row is `j 0`. -/
theorem stored_of_rows_at (j : S8192.Idx) (a : Fin 32 → EReal) (v : Fin 32 → BitVec 1) (cn : Fin 32 → EReal)
    (h0 : ∀ q, P0 (ix2 (j 0) q) = a q)
    (h1 : ∀ q, Ideal.cmp .ogt (P1 (ix2 (j 0) q)) (Ideal.ofBits .f32 0x3F000000#32) = v q)
    (h2 : ∀ q, P2 (ix2 (j 0) q) = cn q) :
    k0_pay1 (F := Ideal) (k0_pay2 P2) (k0_pay5 P0 P1) (k0_pay6 P0 P1) (k0_pay7 P0 P1) j = pred a v cn := by
  obtain ⟨r, rfl⟩ : ∃ r : Fin 8192, j = ix1 r := ⟨j 0, eq_ix1 j⟩
  exact stored_of_rows P0 P1 P2 r a v cn h0 h1 h2

end Cert.KernelIdeal.KernelPred

end
-- ==== Proof.KernelRun.lean ====
/-
  From blocks to the array.  The kernel runs on a grid of 64 points; point `t` stages rows `8192 t … 8192 t + 8191` of
  the three tables (all 32 columns) and writes back entries `8192 t … 8192 t + 8191` of the result.  Entry `j` of the
  block it writes is the prediction of row `j` of the staged blocks, which are rows `8192 t + j` of the tables; so
  point `t` writes block `t` of ONE array, the rows' predictions of the whole tables.  The 64 blocks tile the result
  (row `i` lies in block `i / 8192`), hence the result array after the run is that array.

  The tables as the region finds them: the similarities are the first argument; the flags are the host's conversion of
  the gathered bits to floats, from which the kernel's comparison with one half recovers the bits; the counts are the
  host's gather.
-/
import proofs.«123956_j60370060313142_1_alg».proof.Proof.KernelBlocks
import proofs.«123956_j60370060313142_1_alg».proof.Proof.KernelPred
import Idealize.ShloMosaic.Lib.StableHlo.Run

set_option maxRecDepth 16384

noncomputable section

namespace Cert.KernelIdeal.KernelRun

open Cert.KernelIdeal Cert.KernelIdeal.Gen Cert.KernelIdeal.ValueP Cert.KernelIdeal.KernelPred Cert.KnnRow
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The flags' bits, recovered from the staged float flags. -/
abbrev flagBits (c : Dev nD) : S524288x32.Idx → BitVec 1 :=
  fun i => Ideal.cmp .ogt (V m c main_v14 i) (Ideal.ofBits .f32 0x3F000000#32)

/-- What the result array ends holding: the rows' predictions of the tables as the region finds them. -/
abbrev result (c : Dev nD) : S524288.Idx → EReal := predAll (V m c main_arg0) (flagBits m c) (V m c main_v13)

/-- The printed index maps, decided over the grid: every window's block row is the point's number, and the three
    input windows take all the columns. -/
theorem idx_facts : ∀ t : Fin cfg0.N, win0_3.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the rows' predictions. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz1]
  simp only [View.ld_unit_zero (S := S8192x32) hz2]
  obtain ⟨e3, e00, e01, e10, e11, e20, e21⟩ := idx_facts t
  funext j
  show k0_pay1 (F := Ideal) (k0_pay2 (iblk m c 2 t)) (k0_pay5 (iblk m c 0 t) (iblk m c 1 t)) (k0_pay6 (iblk m c 0 t) (iblk m c 1 t))
      (k0_pay7 (iblk m c 0 t) (iblk m c 1 t)) j
    = pred (fun q => V m c main_arg0 (ix2 ((((cfg0.win 3).blk t).view.emb j) 0) q))
        (fun q => flagBits m c (ix2 ((((cfg0.win 3).blk t).view.emb j) 0) q))
        (fun q => V m c main_v13 (ix2 ((((cfg0.win 3).blk t).view.emb j) 0) q))
  have hj : (j 0).val < 8192 := (j 0).isLt
  refine stored_of_rows_at (iblk m c 0 t) (iblk m c 1 t) (iblk m c 2 t) j _ _ _ (fun q => ?_) (fun q => ?_) (fun q => ?_)
  · show V m c main_arg0 (((cfg0.win 0).blk t).view.emb (ix2 (j 0) q)) = V m c main_arg0 (ix2 ((((cfg0.win 3).blk t).view.emb j) 0) q)
    refine congrArg _ (funext fun a => Fin.ext ?_)
    match a with
    | ⟨0, _⟩ => show win0_0.index t (0 : Fin 2) * 8192 + 1 * (j 0).val = win0_3.index t (0 : Fin 1) * 8192 + 1 * (j 0).val; omega
    | ⟨1, _⟩ => show win0_0.index t (1 : Fin 2) * 32 + 1 * q.val = q.val; omega
  · show Ideal.cmp .ogt (V m c main_v14 (((cfg0.win 1).blk t).view.emb (ix2 (j 0) q))) (Ideal.ofBits .f32 0x3F000000#32)
      = Ideal.cmp .ogt (V m c main_v14 (ix2 ((((cfg0.win 3).blk t).view.emb j) 0) q)) (Ideal.ofBits .f32 0x3F000000#32)
    refine congrArg (fun i => Ideal.cmp .ogt (V m c main_v14 i) (Ideal.ofBits .f32 0x3F000000#32)) (funext fun a => Fin.ext ?_)
    match a with
    | ⟨0, _⟩ => show win0_1.index t (0 : Fin 2) * 8192 + 1 * (j 0).val = win0_3.index t (0 : Fin 1) * 8192 + 1 * (j 0).val; omega
    | ⟨1, _⟩ => show win0_1.index t (1 : Fin 2) * 32 + 1 * q.val = q.val; omega
  · show V m c main_v13 (((cfg0.win 2).blk t).view.emb (ix2 (j 0) q)) = V m c main_v13 (ix2 ((((cfg0.win 3).blk t).view.emb j) 0) q)
    refine congrArg _ (funext fun a => Fin.ext ?_)
    match a with
    | ⟨0, _⟩ => show win0_2.index t (0 : Fin 2) * 8192 + 1 * (j 0).val = win0_3.index t (0 : Fin 1) * 8192 + 1 * (j 0).val; omega
    | ⟨1, _⟩ => show win0_2.index t (1 : Fin 2) * 32 + 1 * q.val = q.val; omega

/-- An index of the result is in point `t`'s block iff it lies in the block's range. -/
theorem mem_blk (t : Fin cfg0.N) (i : S524288.Idx) :
    i ∈ ((cfg0.win 3).blk t).view.set ↔ ∀ a : Fin 1, win0_3.index t a * S8192.size a ≤ (i a).val ∧ (i a).val < win0_3.index t a * S8192.size a + S8192.size a := by
  show i ∈ ((View.whole main_v15).slice (win0_3.rect t)).set ↔ _
  rw [View.set_slice_whole, Rect.mem_set_unit]
  exact Iff.rfl

/-- The blocks tile the result: index `i` lies in the block of point `i / 8192`. -/
theorem cover (i : S524288.Idx) : ∃ t : Fin cfg0.N, (cfg0.win 3).flush t = true ∧ i ∈ ((cfg0.win 3).blk t).view.set := by
  have hi : (i 0).val < 524288 := (i 0).isLt
  have ht : (i 0).val / 8192 < cfg0.N := by show (i 0).val / 8192 < 64; omega
  refine ⟨⟨(i 0).val / 8192, ht⟩, flush0_3 _, ?_⟩
  rw [mem_blk]
  intro a
  have e3 : win0_3.index ⟨(i 0).val / 8192, ht⟩ (0 : Fin 1) = (i 0).val / 8192 := (idx_facts ⟨(i 0).val / 8192, ht⟩).1
  match a with
  | ⟨0, _⟩ =>
    show win0_3.index ⟨(i 0).val / 8192, ht⟩ (0 : Fin 1) * 8192 ≤ (i 0).val
      ∧ (i 0).val < win0_3.index ⟨(i 0).val / 8192, ht⟩ (0 : Fin 1) * 8192 + 8192
    rw [e3]; omega

/-- THE RESULT ARRAY after the run. -/
theorem final (c : Dev nD) : (dats m 0 c).arrAt 3 cfg0.N = result m c :=
  (dats m 0 c).arrAt_eq_of_cover 3 (result m c) (fun t _ => flushed_eq m c t) cover

/-- The kernel's run with the result array named. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

/-! ## The tables the host prepares -/

/-- The neighbours' positions in the two tables: a negative index counted from the end, then one index per entry. -/
abbrev positions (x1 : S524288x32.Idx → BitVec 32) : S524288x32x1.Idx → BitVec 32 :=
  broadcastInDim S524288x32x1 ![0, 1] bcast_S524288x32_S524288x32x1_0_1
    (select (cmpi .slt x1 (broadcastInDim S524288x32 ![] bcast_S_S524288x32 (constantI S_ 32 0#32)))
      (addi x1 (broadcastInDim S524288x32 ![] bcast_S_S524288x32 (constantI S_ 32 2000000#32))) x1)

/-- The counts table as the region finds it: the host's gather of the fourth argument. -/
theorem counts_table (c : Dev nD) : (V m c main_v13 : S524288x32.Idx → EReal)
    = Host.gather gather_S2000000_S524288x32x1_S524288x32_n_0_n_n_0_2_1 (m ((c : Thread nD τ).loc main_arg3))
        (positions (m ((c : Thread nD τ).loc main_arg1))) := by
  dsimp only [Gen.V, Gen.hostOps0]; after_results

/-- The flags table as the region finds it: the host's gather of the third argument, each bit converted to a float. -/
theorem flags_table (c : Dev nD) : (V m c main_v14 : S524288x32.Idx → EReal)
    = uitofp (F := Ideal) .f32 (Host.gather gather_S2000000_S524288x32x1_S524288x32_n_0_n_n_0_2_1 (m ((c : Thread nD τ).loc main_arg2))
        (positions (m ((c : Thread nD τ).loc main_arg1)))) := by
  dsimp only [Gen.V, Gen.hostOps0]; after_results

/-- So the recovered bits are the gathered bits. -/
theorem flagBits_eq (c : Dev nD) : flagBits m c
    = Host.gather gather_S2000000_S524288x32x1_S524288x32_n_0_n_n_0_2_1 (m ((c : Thread nD τ).loc main_arg2))
        (positions (m ((c : Thread nD τ).loc main_arg1))) := by
  funext i
  show Ideal.cmp .ogt ((V m c main_v14 : S524288x32.Idx → EReal) i) (Ideal.ofBits .f32 0x3F000000#32) = _
  rw [flags_table]
  exact cmp_toNat_half _

end Cert.KernelIdeal.KernelRun

end
-- ==== Proof.RefPred.lean ====
/-
  The reference's result is the rows' predictions.  Row `b` of the reference's arrays: the similarities `x0 (b, ·)`,
  the flags gathered for the row's neighbours and the counts gathered for them.  Stage by stage, each value the
  reference computes at row `b` (and column `k`) is the corresponding piece of `Cert.KnnRow.pred` of that row: the
  kept and viral bits; the two totals, which the reference adds as 32-bit words and then converts (the word total of
  32 bits is their number, so nothing wraps and the conversion is exact); the validity test; the row maximum; the
  weights, their sum and the normaliser; the weighted sum of the counts.
-/
import proofs.«123956_j60370060313142_1_alg».proof.Proof.RefRead
import proofs.«123956_j60370060313142_1_alg».proof.Proof.RowSpec

noncomputable section

namespace Cert.ReferenceIdeal.RefPred

open Cert.ReferenceIdeal Cert.ReferenceIdeal.Gen Cert.ReferenceIdeal.ReadP Cert.KnnRow
open Idealize.ShloMosaic Idealize.ShloMosaic.ValueIdx Idealize.ShloMosaic.StableHlo

variable (x0 : (⟨S524288x32, .f32⟩ : BufTy).Contents (Elt Ideal)) (x1 : (⟨S524288x32, .i32⟩ : BufTy).Contents (Elt Ideal))
  (x2 : (⟨S2000000, .i1⟩ : BufTy).Contents (Elt Ideal)) (x3 : (⟨S2000000, .f32⟩ : BufTy).Contents (Elt Ideal))

/-- Row `b` of the similarities. -/
abbrev ra (b : Fin 524288) : Fin 32 → EReal := fun k => x0 (ix2 b k)
/-- Row `b` of the gathered flags. -/
abbrev rv (b : Fin 524288) : Fin 32 → BitVec 1 := fun k => val_main_v8 (F := Ideal) x1 x2 (ix2 b k)
/-- Row `b` of the gathered counts. -/
abbrev rc (b : Fin 524288) : Fin 32 → EReal := fun k => val_main_v46 (F := Ideal) x1 x3 (ix2 b k)

variable (b : Fin 524288) (k : Fin 32)

/-! ## Indices: a row index with a column inserted, and back -/

theorem lift_eq (h : S524288x32.Reduces [1] S524288) : h.lift (ix1 b) k = ix2 b k :=
  funext fun a => Fin.ext (by match a with | ⟨0, _⟩ => rfl | ⟨1, _⟩ => rfl)

theorem row_of_entry_29 : idx_main_v29 (idx_main_v30 (ix2 b k)) = ix1 b :=
  funext fun a => Fin.ext (by match a with | ⟨0, _⟩ => rfl)

theorem row_of_entry_35 : idx_main_v35 (idx_main_v38 (ix2 b k)) = ix1 b :=
  funext fun a => Fin.ext (by match a with | ⟨0, _⟩ => rfl)

theorem entry_34 : idx_main_v34 (ix1 b) k = ix2 b k :=
  funext fun a => Fin.ext (by match a with | ⟨0, _⟩ => rfl | ⟨1, _⟩ => rfl)

theorem entry_48 : idx_main_v48 (ix1 b) k = ix2 b k :=
  funext fun a => Fin.ext (by match a with | ⟨0, _⟩ => rfl | ⟨1, _⟩ => rfl)

theorem ij_eq (q : Fin 32) : Predicate.ij ((ix1 b : (⟨1, ![524288]⟩ : Shape).Idx) 0) q = ix2 b q :=
  funext fun a => Fin.ext (by match a with | ⟨0, _⟩ => rfl | ⟨1, _⟩ => rfl)

/-! ## The bits -/

theorem keep_at : val_main_v1 (F := Ideal) x0 (ix2 b k) = keep (ra x0 b) k := by
  rw [val_main_v1_apply, val_main_v0_apply]; rfl

theorem viral_at : val_main_v9 (F := Ideal) x0 x1 x2 (ix2 b k) = viral (ra x0 b) (rv x1 x2 b) k := by
  rw [val_main_v9_apply, keep_at]; rfl

/-! ## The two totals, as words -/

theorem count_le (p : Fin 32 → BitVec 1) : setBits p ≤ 32 := by
  unfold setBits; exact (Finset.card_filter_le _ _).trans (by simp)

theorem nkeep_toNat : (val_main_v11 (F := Ideal) x0 (ix1 b)).toNat = setBits (keep (ra x0 b)) := by
  refine (Predicate.toNat_reduce_count_cols (n := 524288) (m := 32) (by decide) (val_main_v1 (F := Ideal) x0) natLt_1_32
    reducesTo_S524288x32_S524288_d1 h_S_ (ix1 b)).trans ?_
  unfold setBits
  exact congrArg Finset.card (Finset.filter_congr fun q _ =>
    Iff.of_eq (congrArg (· = 1#1) ((congrArg (val_main_v1 (F := Ideal) x0) (ij_eq b q)).trans (keep_at x0 b q))))

theorem nviral_toNat :
    (val_main_v13 (F := Ideal) x0 x1 x2 (ix1 b)).toNat = setBits (viral (ra x0 b) (rv x1 x2 b)) := by
  refine (Predicate.toNat_reduce_count_cols (n := 524288) (m := 32) (by decide) (val_main_v9 (F := Ideal) x0 x1 x2) natLt_1_32
    reducesTo_S524288x32_S524288_d1 h_S_ (ix1 b)).trans ?_
  unfold setBits
  exact congrArg Finset.card (Finset.filter_congr fun q _ =>
    Iff.of_eq (congrArg (· = 1#1) ((congrArg (val_main_v9 (F := Ideal) x0 x1 x2) (ij_eq b q)).trans (viral_at x0 x1 x2 b q))))

/-! ## The totals converted, the share, the validity test -/

theorem nviral_f : val_main_v16 (F := Ideal) x0 x1 x2 (ix1 b) = cnt (viral (ra x0 b) (rv x1 x2 b)) := by
  rw [val_main_v16_apply]
  exact coe_toInt_count _ _ (nviral_toNat x0 x1 x2 b) (count_le _)

theorem nkeep_floor_f :
    val_main_v17 (F := Ideal) x0 (ix1 b) = max (cnt (keep (ra x0 b))) (Ideal.ofBits .f32 0x3F800000#32) := by
  rw [val_main_v17_apply, val_main_v15_apply, val_main_v14_apply]
  exact coe_toInt_maxsi_one _ _ (nkeep_toNat x0 b) (count_le _)

theorem nkeep_pos : val_main_v20 (F := Ideal) x0 (ix1 b)
    = Ideal.cmp .ogt (cnt (keep (ra x0 b))) (Ideal.ofBits .f32 0x00000000#32) := by
  rw [val_main_v20_apply, val_main_v19_apply]
  exact cmpi_sgt_zero _ _ (nkeep_toNat x0 b) (count_le _)

theorem nviral_pos : val_main_v22 (F := Ideal) x0 x1 x2 (ix1 b)
    = Ideal.cmp .ogt (cnt (viral (ra x0 b) (rv x1 x2 b))) (Ideal.ofBits .f32 0x00000000#32) := by
  rw [val_main_v22_apply, val_main_v21_apply]
  exact cmpi_sgt_zero _ _ (nviral_toNat x0 x1 x2 b) (count_le _)

theorem valid_at : val_main_v26 (F := Ideal) x0 x1 x2 (ix1 b) = valid (ra x0 b) (rv x1 x2 b) := by
  rw [val_main_v26_apply, val_main_v23_apply, val_main_v25_apply, val_main_v24_apply, val_main_v18_apply,
    nkeep_pos, nviral_pos, nviral_f, nkeep_floor_f]
  rfl

/-! ## The row maximum, the weights, the normaliser -/

theorem logit_at : val_main_v27 (F := Ideal) x0 x1 x2 (ix2 b k)
    = Scalar.select (viral (ra x0 b) (rv x1 x2 b) k) (ra x0 b k) (Ideal.ofBits .f32 0xF149F2CA#32) := by
  rw [val_main_v27_apply, viral_at, val_main_call0_v0_apply]; rfl

theorem max_at : val_main_v28 (F := Ideal) x0 x1 x2 (ix1 b) = rowMax (ra x0 b) (rv x1 x2 b) := by
  have h : S524288x32.Reduces [1] S524288 := by decide
  unfold val_main_v28
  rw [Host.reduce_eq_fold_single FloatOps.maximumf _ _ reducesTo_S524288x32_S524288_d1 h h_S_ (ix1 b)]
  unfold rowMax
  exact Finset.fold_congr fun q _ =>
    (congrArg (val_main_v27 (F := Ideal) x0 x1 x2) (lift_eq b q h)).trans (logit_at x0 x1 x2 b q)

theorem wexp_at : val_main_v33 (F := Ideal) x0 x1 x2 (ix2 b k) = wexp (ra x0 b) (rv x1 x2 b) k := by
  rw [val_main_v33_apply, viral_at, val_main_v32_apply, val_main_v31_apply, val_main_v30_apply, val_main_v29_apply,
    row_of_entry_29, max_at, val_main_call1_v1_apply]
  rfl

theorem wsum_at : val_main_v34 (F := Ideal) x0 x1 x2 (ix1 b) = ∑ q : Fin 32, wexp (ra x0 b) (rv x1 x2 b) q := by
  rw [val_main_v34_apply]
  show Ideal.ofBits .f32 0x00000000#32 + _ = _
  rw [Ideal.ofBits_zero_f32, zero_add]
  refine Finset.sum_congr rfl fun q _ => ?_
  rw [entry_34, wexp_at]

theorem denom_at : val_main_v38 (F := Ideal) x0 x1 x2 (ix2 b k) = denom (ra x0 b) (rv x1 x2 b) := by
  rw [val_main_v38_apply, val_main_v37_apply, val_main_v35_apply, val_main_v36_apply, row_of_entry_35, wsum_at]
  rfl

theorem weight_at : val_main_v39 (F := Ideal) x0 x1 x2 (ix2 b k)
    = Ideal.div (wexp (ra x0 b) (rv x1 x2 b) k) (denom (ra x0 b) (rv x1 x2 b)) := by
  rw [val_main_v39_apply, wexp_at, denom_at]; rfl

theorem wsumcounts_at : val_main_v48 (F := Ideal) x0 x1 x2 x3 (ix1 b)
    = ∑ q : Fin 32, Ideal.div (wexp (ra x0 b) (rv x1 x2 b) q) (denom (ra x0 b) (rv x1 x2 b)) * rc x1 x3 b q := by
  rw [val_main_v48_apply]
  show Ideal.ofBits .f32 0x00000000#32 + _ = _
  rw [Ideal.ofBits_zero_f32, zero_add]
  refine Finset.sum_congr rfl fun q _ => ?_
  rw [entry_48, val_main_v47_apply, weight_at]; rfl

/-! ## The result -/

/-- The reference's result array is the rows' predictions, of the similarities, the gathered flags and the gathered counts. -/
theorem result_eq : val_main_v49 (F := Ideal) x0 x1 x2 x3
    = predAll x0 (val_main_v8 (F := Ideal) x1 x2) (val_main_v46 (F := Ideal) x1 x3) := by
  funext i
  obtain ⟨b, rfl⟩ : ∃ b : Fin 524288, i = ix1 b := ⟨i 0, eq_ix1 i⟩
  rw [val_main_v49_apply, valid_at, wsumcounts_at, val_main_call2_v1_apply]
  rfl

end Cert.ReferenceIdeal.RefPred

end
-- ==== Proof.lean ====
/-
  The certificate's claims.

  Both programs compute, for each of 524288 rows of 32 neighbours, one prediction: among the neighbours whose
  similarity exceeds a threshold (KEPT) and whose flag, looked up in a table, is set (VIRAL), the softmax-weighted sum
  of their looked-up counts, reported only when the row has a kept and a viral neighbour and the viral share of the kept
  ones reaches one fifth, and zero otherwise (`Cert.KnnRow.pred`, Proof/RowSpec.lean).  The two table look-ups are the
  same host operations in both programs.  The kernel runs the row computation block by block on floats, the flags
  converted to 0.0 / 1.0 and recovered by a comparison with one half, its two totals float sums of converted bits;
  the reference runs it on whole arrays and takes the two totals as word sums which it then converts.  Over the
  extended reals both totals are the number of set bits, so the two results agree entry by entry with no use of the
  inputs' finiteness.

  Frames: the two kernels' are the generated frame theorems; the reference's is its run with the result dropped.  The
  idealization rewrote nothing, so `preserves` is trivial.
-/
import proofs.«123956_j60370060313142_1_alg».proof.Defs
import proofs.«123956_j60370060313142_1_alg».proof.Proof.Gen.Kernel
import proofs.«123956_j60370060313142_1_alg».proof.Proof.Gen.Kernel.Skeleton
import proofs.«123956_j60370060313142_1_alg».proof.Proof.Gen.Kernel.Launch
import proofs.«123956_j60370060313142_1_alg».proof.Proof.Gen.Kernel.Points
import proofs.«123956_j60370060313142_1_alg».proof.Proof.Gen.Kernel.Frame
import proofs.«123956_j60370060313142_1_alg».proof.Proof.Gen.KernelIdeal
import proofs.«123956_j60370060313142_1_alg».proof.Proof.Gen.KernelIdeal.Skeleton
import proofs.«123956_j60370060313142_1_alg».proof.Proof.Gen.KernelIdeal.Launch
import proofs.«123956_j60370060313142_1_alg».proof.Proof.Gen.KernelIdeal.Points
import proofs.«123956_j60370060313142_1_alg».proof.Proof.Gen.KernelIdeal.Frame
import proofs.«123956_j60370060313142_1_alg».proof.Proof.Gen.ReferenceIdeal
import proofs.«123956_j60370060313142_1_alg».proof.Proof.Gen.Pre_finite_inputs
import proofs.«123956_j60370060313142_1_alg».proof.Proof.KernelRun
import proofs.«123956_j60370060313142_1_alg».proof.Proof.RefPred
import Idealize.ShloMosaic.Adequacy
import Idealize.ShloMosaic.Init

noncomputable section

namespace Cert.Proof

open Idealize.ShloMosaic Idealize.ShloMosaic.TcCoe Idealize.SL.Sem

/-! ## The two results are one array -/

/-- The kernel's result array is the reference's last stage of the same four arguments: both are the rows'
    predictions of the similarities, the gathered flags and the gathered counts. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.KernelRun.result m c
      = Cert.ReferenceIdeal.ReadP.val_main_v49 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  rw [Cert.ReferenceIdeal.RefPred.result_eq]
  unfold Cert.KernelIdeal.KernelRun.result
  rw [Cert.KernelIdeal.Gen.V_main_arg0, Cert.KernelIdeal.KernelRun.flagBits_eq, Cert.KernelIdeal.KernelRun.counts_table]
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Run from memories that agree on the arguments, the kernel ends with its result array at the rows' predictions
    and the reference with its result at its last stage, which is the same array. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, (hagree c).1, (hagree c).2.1, (hagree c).2.2.1, (hagree c).2.2.2]
  exact (kernel_result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
